-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x5000x64 : Shape := ⟨3, ![4, 5000, 64]⟩
abbrev S4x96x64 : Shape := ⟨3, ![4, 96, 64]⟩
abbrev S_ : Shape := ⟨0, ![]⟩

class Facts : Prop where
  bcast_S_S4x5000x64 : S_.BroadcastsInDim S4x5000x64 (![] : Fin 0 → Fin S4x5000x64.rank)
  reducesTo_S4x5000x64_S_d0_1_2 : S4x5000x64.ReducesTo [0, 1, 2] S_
  h_S_ : 0 < S_.numel
  bcast_S_S4x96x64 : S_.BroadcastsInDim S4x96x64 (![] : Fin 0 → Fin S4x96x64.rank)
  reducesTo_S4x96x64_S_d0_1_2 : S4x96x64.ReducesTo [0, 1, 2] S_

variable [Facts]

def fn {F : FTy → Type} [FloatOps F] (main_arg0 : FVec F S4x5000x64 .f32) (main_arg1 : FVec F S4x96x64 .f32) : IVec S_ 1 :=
  let main_v0 : FVec F S4x5000x64 .f32 := Host.absf main_arg0
  let main_cst : FVec F S_ .f32 := constant S_ .f32 0x7F800000#32
  let main_v1 : FVec F S4x5000x64 .f32 := broadcastInDim S4x5000x64 ![] bcast_S_S4x5000x64 main_cst
  let main_v2 : IVec S4x5000x64 1 := cmpf .olt main_v0 main_v1
  let main_c : IVec S_ 1 := constantI S_ 1 1#1
  let main_v3 : IVec S_ 1 := (fun x v => Host.reduce IntOp.andi x v reducesTo_S4x5000x64_S_d0_1_2 h_S_) main_v2 main_c
  let main_v4 : FVec F S4x96x64 .f32 := Host.absf main_arg1
  let main_cst_0 : FVec F S_ .f32 := constant S_ .f32 0x7F800000#32
  let main_v5 : FVec F S4x96x64 .f32 := broadcastInDim S4x96x64 ![] bcast_S_S4x96x64 main_cst_0
  let main_v6 : IVec S4x96x64 1 := cmpf .olt main_v4 main_v5
  let main_c_1 : IVec S_ 1 := constantI S_ 1 1#1
  let main_v7 : IVec S_ 1 := (fun x v => Host.reduce IntOp.andi x v reducesTo_S4x96x64_S_d0_1_2 h_S_) main_v6 main_c_1
  let main_v8 : IVec S_ 1 := andi main_v3 main_v7
  main_v8
-- ==== Kernel.lean ====
abbrev S4x5000x64 : Shape := ⟨3, ![4, 5000, 64]⟩
abbrev S4x96x64 : Shape := ⟨3, ![4, 96, 64]⟩
abbrev S4x5096x64 : Shape := ⟨3, ![4, 5096, 64]⟩
abbrev S_ : Shape := ⟨0, ![]⟩
abbrev S4x5120x64 : Shape := ⟨3, ![4, 5120, 64]⟩
abbrev S4x5120x5120 : Shape := ⟨3, ![4, 5120, 5120]⟩
abbrev S1x1280x64 : Shape := ⟨3, ![1, 1280, 64]⟩
abbrev S1x1280x1280 : Shape := ⟨3, ![1, 1280, 1280]⟩
abbrev S1280x64 : Shape := ⟨2, ![1280, 64]⟩
abbrev S1280x1280 : Shape := ⟨2, ![1280, 1280]⟩
abbrev S4x5096x5096 : Shape := ⟨3, ![4, 5096, 5096]⟩

abbrev nBuf : Space → Nat
  | .hbm => 8
  | .vmem => 6
  | .smem => 0
  | _ => 0

abbrev bufTy : (tb : Table) → Fin (tcTables nBuf tb) → BufTy
  | .hbm, ⟨0, _⟩ => ⟨S4x5000x64, .f32⟩
  | .hbm, ⟨1, _⟩ => ⟨S4x96x64, .f32⟩
  | .hbm, ⟨2, _⟩ => ⟨S4x5096x64, .f32⟩
  | .hbm, ⟨3, _⟩ => ⟨S_, .i32⟩
  | .hbm, ⟨4, _⟩ => ⟨S_, .f32⟩
  | .hbm, ⟨5, _⟩ => ⟨S4x5120x64, .f32⟩
  | .hbm, ⟨6, _⟩ => ⟨S4x5120x5120, .f32⟩
  | .hbm, ⟨7, _⟩ => ⟨S4x5096x5096, .f32⟩
  | .local _ .vmem, ⟨0, _⟩ => ⟨S1x1280x64, .f32⟩
  | .local _ .vmem, ⟨1, _⟩ => ⟨S1x1280x64, .f32⟩
  | .local _ .vmem, ⟨2, _⟩ => ⟨S1x1280x64, .f32⟩
  | .local _ .vmem, ⟨3, _⟩ => ⟨S1x1280x64, .f32⟩
  | .local _ .vmem, ⟨4, _⟩ => ⟨S1x1280x1280, .f32⟩
  | .local _ .vmem, ⟨5, _⟩ => ⟨S1x1280x1280, .f32⟩
  | _, _ => ⟨S4x5000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1280x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1280x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1280x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  concatenates_S4x5000x64_S4x96x64_S4x5096x64_d1 : Shape.Concatenates [S4x5000x64, S4x96x64] S4x5096x64 1
  pads_S4x5096x64_S4x5120x64_000_0240_000 : S4x5096x64.Pads (![0, 0, 0] : Fin 3 → Nat) ![0, 24, 0] ![0, 0, 0] S4x5120x64
  h_S_ : 0 < S_.numel
  inb_S1x1280x64_S1x1280x64_0_0_0 : ∀ a, (![0, 0, 0] : Fin 3 → Nat) a + S1x1280x64.size a ≤ S1x1280x64.size a
  h_S1x1280x64 : 0 < S1x1280x64.numel
  shapeCasts_S1x1280x64_S1280x64 : S1x1280x64.ShapeCasts S1280x64
  bitsLt_bf16_f32 : FTy.bits .bf16 < FTy.bits .f32
  iota_S1280x1280_d0_w32 : S1280x1280.Iotas .tc 32 [0]
  iota_S1280x1280_d1_w32 : S1280x1280.Iotas .tc 32 [1]
  natLt_1_32 : 1 < 32
  inb_S1x1280x1280_S1x1280x1280_0_0_0 : ∀ a, (![0, 0, 0] : Fin 3 → Nat) a + S1x1280x1280.size a ≤ S1x1280x1280.size a
  h_S1x1280x1280 : 0 < S1x1280x1280.numel
  shapeCasts_S1x1280x1280_S1280x1280 : S1x1280x1280.ShapeCasts S1280x1280
  shapeCasts_S1280x1280_S1x1280x1280 : S1280x1280.ShapeCasts S1x1280x1280
  slices_S4x5120x5120_S4x5096x5096_0_0_0 : S4x5120x5120.Slices ![0, 0, 0] S4x5096x5096
  dot_S1280x64_S1280x64_S1280x1280_1_1_0_0_n_n_wf : DotDims.WF S1280x64 S1280x64 S1280x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1280x64.size a ≤ S4x5120x64.size a
  hwx0_0 : ∀ i : grid0.Coords, EltTy.bits .f32 = 32 ∨ (Rect.block (s := S4x5120x64) S1x1280x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1280x64.size a ≤ S4x5120x64.size a
  hwx0_1 : ∀ i : grid0.Coords, EltTy.bits .f32 = 32 ∨ (Rect.block (s := S4x5120x64) S1x1280x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1280x1280.size a ≤ S4x5120x5120.size a
  hwx0_2 : ∀ i : grid0.Coords, EltTy.bits .f32 = 32 ∨ (Rect.block (s := S4x5120x5120) S1x1280x1280.size (cc0_transform_2 i) (hinb0_2 i)).WholeWords (EltTy.packing .f32)

variable [Facts₀]

def dot_S1280x64_S1280x64_S1280x1280_1_1_0_0_n_n : DotDims S1280x64 S1280x64 S1280x1280 where
  lhsContracting := [1]
  rhsContracting := [1]
  lhsNonContracting := [0]
  rhsNonContracting := [0]
  lhsBatch := []
  rhsBatch := []
  wf := dot_S1280x64_S1280x64_S1280x1280_1_1_0_0_n_n_wf

abbrev win0_0 : Pipeline.Window sig grid0 :=
  Pipeline.Window.ofSpec (Memref.whole main_v1) S1x1280x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1280x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1280x1280.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x5000x64 : Shape := ⟨3, ![4, 5000, 64]⟩
abbrev S4x96x64 : Shape := ⟨3, ![4, 96, 64]⟩
abbrev S4x5096x64 : Shape := ⟨3, ![4, 5096, 64]⟩
abbrev S4x5096x5096 : Shape := ⟨3, ![4, 5096, 5096]⟩
abbrev S_ : Shape := ⟨0, ![]⟩
abbrev S5096x5096 : Shape := ⟨2, ![5096, 5096]⟩
abbrev S1x5096x5096 : Shape := ⟨3, ![1, 5096, 5096]⟩

abbrev nBuf : Space → Nat
  | .hbm => 18
  | .vmem => 0
  | .smem => 0
  | _ => 0

abbrev bufTy : (tb : Table) → Fin (tcTables nBuf tb) → BufTy
  | .hbm, ⟨0, _⟩ => ⟨S4x5000x64, .f32⟩
  | .hbm, ⟨1, _⟩ => ⟨S4x96x64, .f32⟩
  | .hbm, ⟨2, _⟩ => ⟨S4x5096x64, .f32⟩
  | .hbm, ⟨3, _⟩ => ⟨S4x5096x5096, .f32⟩
  | .hbm, ⟨4, _⟩ => ⟨S_, .f32⟩
  | .hbm, ⟨5, _⟩ => ⟨S4x5096x5096, .f32⟩
  | .hbm, ⟨6, _⟩ => ⟨S4x5096x5096, .f32⟩
  | .hbm, ⟨7, _⟩ => ⟨S5096x5096, .i32⟩
  | .hbm, ⟨8, _⟩ => ⟨S5096x5096, .i32⟩
  | .hbm, ⟨9, _⟩ => ⟨S_, .i32⟩
  | .hbm, ⟨10, _⟩ => ⟨S5096x5096, .i32⟩
  | .hbm, ⟨11, _⟩ => ⟨S5096x5096, .i32⟩
  | .hbm, ⟨12, _⟩ => ⟨S5096x5096, .i1⟩
  | .hbm, ⟨13, _⟩ => ⟨S5096x5096, .f32⟩
  | .hbm, ⟨14, _⟩ => ⟨S1x5096x5096, .f32⟩
  | .hbm, ⟨15, _⟩ => ⟨S4x5096x5096, .f32⟩
  | .hbm, ⟨16, _⟩ => ⟨S4x5096x5096, .f32⟩
  | .hbm, ⟨17, _⟩ => ⟨S4x5096x5096, .f32⟩
  | _, _ => ⟨S4x5000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  concatenates_S4x5000x64_S4x96x64_S4x5096x64_d1 : Shape.Concatenates [S4x5000x64, S4x96x64] S4x5096x64 1
  bcast_S_S4x5096x5096 : S_.BroadcastsInDim S4x5096x5096 (![] : Fin 0 → Fin S4x5096x5096.rank)
  bcast_S_S5096x5096 : S_.BroadcastsInDim S5096x5096 (![] : Fin 0 → Fin S5096x5096.rank)
  bcast_S5096x5096_S1x5096x5096_1_2 : S5096x5096.BroadcastsInDim S1x5096x5096 (![1, 2] : Fin 2 → Fin S1x5096x5096.rank)
  bcast_S1x5096x5096_S4x5096x5096_0_1_2 : S1x5096x5096.BroadcastsInDim S4x5096x5096 (![0, 1, 2] : Fin 3 → Fin S4x5096x5096.rank)
  dot_S4x5096x64_S4x5096x64_S4x5096x5096_2_2_1_1_0_0_wf : DotDims.WF S4x5096x64 S4x5096x64 S4x5096x5096 [2] [2] [1] [1] [0] [0]

variable [Facts₀]

def dot_S4x5096x64_S4x5096x64_S4x5096x5096_2_2_1_1_0_0 : DotDims S4x5096x64 S4x5096x64 S4x5096x5096 where
  lhsContracting := [2]
  rhsContracting := [2]
  lhsNonContracting := [1]
  rhsNonContracting := [1]
  lhsBatch := [0]
  rhsBatch := [0]
  wf := dot_S4x5096x64_S4x5096x64_S4x5096x5096_2_2_1_1_0_0_wf

class Facts : Prop extends Facts₀ where

variable [Facts]
-- ==== Proof.BodyBits.lean ====
/-
  The kernel region of `Kernel` at a parameter `V`, the TensorCore's buffer contents when the region is entered.
  The grid has 4 × 4 × 4 points `(b, i, j)`. Window 0 hands the body rows `1280·i … 1280·i + 1279` of batch `b` of the padded
  embeddings, window 1 rows `1280·j …` of the SAME array, and window 2 takes back the `1280 × 1280` tile `(i, j)` of
  batch `b` of the result. The body reads both input blocks whole, reads the output buffer (a value it never uses) and
  stores the whole output block: so after the body each input buffer still holds its block and the output buffer holds
  the body's one payload of the two blocks. Stated here: the blocks, the body's triple, the proof data of the pipeline
  and its obligation at every point. The two input windows each hold one HALF of the shared array's ownership.
-/
import proofs.«130516_j54829552501064_1_alg».proof.Proof.Gen.Kernel.Launch
import proofs.«130516_j54829552501064_1_alg».proof.Proof.Gen.Kernel.Skeleton
import proofs.«130516_j54829552501064_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rIn : Rect S1x1280x64 := Rect.unit (s := S1x1280x64) ![0, 0, 0] S1x1280x64.size inb_S1x1280x64_S1x1280x64_0_0_0
abbrev rOut : Rect S1x1280x1280 := Rect.unit (s := S1x1280x1280) ![0, 0, 0] S1x1280x1280.size inb_S1x1280x1280_S1x1280x1280_0_0_0

/-- The output buffer after the body, from the two input blocks: its one store as a piece. -/
def out0_2 (i : grid0.Coords) (x0 x1 : Vec F S1x1280x64 .f32) : Vec F S1x1280x1280 .f32 :=
  View.canon [⟨rOut, k0_pay1 i (View.ld x0 rIn) (View.ld x1 rIn)⟩]

/-- The one store covers the buffer. -/
theorem cover0_2 (p0 : Vec F S1x1280x1280 .f32) (y : S1x1280x1280.Idx) :
    ∃ pc ∈ ([⟨rOut, p0⟩] : List (View.Piece (Elt F) S1x1280x1280 .f32)), y ∈ pc.1.set :=
  View.cover_of_tiled [⟨rOut, p0⟩] S1x1280x1280.size (by rfl) y

/-! ## The body's triple -/

set_option maxHeartbeats 4000000 in
/-- The kernel body on whole staging memrefs, the inputs' at contents `x0`, `x1` and the output's at anything, runs to
    the continuation holding the inputs' as they were and the output's at `out0_2` of them. -/
theorem sound_kernel0 (c : Dev nD) (E : Set ℕ) (i : grid0.Coords)
    (arg3 : Memref sig .tc .vmem S1x1280x64 .f32) (harg3 : arg3.IsWhole) (arg4 : Memref sig .tc .vmem S1x1280x64 .f32) (harg4 : arg4.IsWhole)
    (arg5 : Memref sig .tc .vmem S1x1280x1280 .f32) (harg5 : arg5.IsWhole)
    (x0 x1 : Vec F S1x1280x64 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out0_2 i x0 x1)) -∗ K ⟨⟩))
      ⊢ wp frame (wpE (defs₀ (F := F)) Variants.none c none) E (cc0__stgraph_kernel i arg3 harg3 arg4 harg4 arg5 harg5) K := by
  simp only [cc0__stgraph_kernel_eq_skeleton]; unfold cc0__stgraph_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them; after the body at point `t` each
    input's buffer at its block and the output's at `out0_2` of the two blocks; the invariant the scoped rest and the
    generator register, untouched; nothing owed; the shared input array held half by window 0 and half by window 1. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (grid0.coords t) (iblk0 V c 0 t) (iblk0 V c 1 t)
  Φ _ := Pipeline.ΦA spec0 c
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (grid0.coords t) (iblk0 V c 0 t) (iblk0 V c 1 t) := by dsimp only [dat0]

theorem q0_0 (c : Dev nD) : (dat0 V c).q 0 = fullShare.left := by dsimp only [dat0]
theorem q0_1 (c : Dev nD) : (dat0 V c).q 1 = fullShare.right := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.ShareBits.lean ====
/-
  One array behind two windows. The padded embeddings are read by window 0 (rows of the tile's row block) and by
  window 1 (rows of its column block). When the region is entered the array is owned whole; the pipeline wants each
  input window's array at that window's share, so the whole ownership is split in two halves, one per window, and the
  two halves are joined again when the region is left (neither window writes its array, so both halves still hold the
  entry contents). The output's array is a buffer of its own, owned whole throughout.
-/
import proofs.«130516_j54829552501064_1_alg».proof.Proof.BodyBits
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the three windows' arrays are two: the padded embeddings and the result. -/
theorem arrBufs_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_v1) ↦{fullShare} V' main_v1) ∗ (((c : Thread nD τ).loc main_v2) ↦{fullShare} V' main_v2)) := by
  unfold Pipeline.arrBufs
  exact bigSep_eq_bigSepL_of_eq [main_v1, main_v2] (by decide) (by decide) _

theorem share0_0 (c : Dev nD) : (dat0 V c).share 0 = fullShare.left := by
  unfold Dat.share; rw [if_neg (by decide)]; exact q0_0 V c
theorem share0_1 (c : Dev nD) : (dat0 V c).share 1 = fullShare.right := by
  unfold Dat.share; rw [if_neg (by decide)]; exact q0_1 V c
theorem share0_2 (c : Dev nD) : (dat0 V c).share 2 = fullShare := by
  unfold Dat.share; rw [if_pos (by decide)]

/-- The pipeline's arrays at contents `G`, window by window: the embeddings' two halves and the result whole. -/
theorem arrays_eq3 (c : Dev nD) (G : (w : Fin cfg0.W) → Buf (Elt F) ((cfg0.win w).arr.view.loc (c : Thread nD τ))) :
    ((dat0 V c).arrays G : sProp 𝕄)
      = iprop((((c : Thread nD τ).loc main_v1) ↦{fullShare.left} G 0) ∗ (((c : Thread nD τ).loc main_v1) ↦{fullShare.right} G 1)
          ∗ (((c : Thread nD τ).loc main_v2) ↦{fullShare} G 2)) := by
  unfold Dat.arrays
  rw [bigSep_W0, share0_0, share0_1, share0_2, (arr_whole0 0).set_eq_univ, (arr_whole0 2).set_eq_univ]

/-- ENTRY: every unscoped buffer at `V` gives the pipeline's arrays at their entry contents (the embeddings' ownership
    halved between the two windows that read it) and the rest. -/
theorem arrays_entry (c : Dev nD) :
    (unscopedBufs (Ix := Unit) (Name := ℕ) (U := UR sig nD τ) (Lvl := ℕ) c (V c) : sProp 𝕄)
      ⊢ iprop((dat0 V c).arrays ((dat0 V c).arrAt · 0)
          ∗ Pipeline.unscopedRest (Ix := Unit) (Name := ℕ) (U := UR sig nD τ) (Lvl := ℕ) spec0 c (V c)) := by
  rw [Pipeline.unscopedBufs_split₀ cfgs 0 winFacts₀0.arr_unscoped c (V c), arrBufs_eq, arrays_eq3]
  iintro ⟨⟨H1, H2⟩, Hr⟩
  isplitr [Hr]; swap; · iexact Hr
  have hs : ((((c : Thread nD τ).loc main_v1) ↦{fullShare} V c main_v1 : sProp 𝕄))
      ⊢ iprop((((c : Thread nD τ).loc main_v1) ↦{fullShare.left} V c main_v1) ∗ (((c : Thread nD τ).loc main_v1) ↦{fullShare.right} V c main_v1)) :=
    (pointsTo_share (PosShare.mem_left_op_right fullShare)).1
  ihave H := hs $$ H1
  icases H with ⟨Hl, Hrr⟩
  isplitl [Hl]; · iexact Hl
  isplitl [Hrr]; · iexact Hrr
  iexact H2

/-- EXIT: the pipeline's arrays at contents `G` — the two halves of the embeddings at one and the same contents — and
    the rest at `V` are every unscoped buffer at any valuation `V'` that has the arrays at `G` and agrees with `V` off them. -/
theorem arrays_exit (c : Dev nD) (V' : (b : Ref sig .tc) → Buf (Elt F) ((c : Thread nD τ).loc b))
    (G : (w : Fin cfg0.W) → Buf (Elt F) ((cfg0.win w).arr.view.loc (c : Thread nD τ)))
    (h0 : G 0 = V' main_v1) (h1 : G 1 = V' main_v1) (h2 : G 2 = V' main_v2)
    (hrest : ∀ b, b ∉ Finset.univ.image (Pipeline.arrRef spec0) → V' b = V c b) :
    iprop((dat0 V c).arrays G ∗ Pipeline.unscopedRest (Ix := Unit) (Name := ℕ) (U := UR sig nD τ) (Lvl := ℕ) spec0 c (V c))
      ⊢ (unscopedBufs (Ix := Unit) (Name := ℕ) (U := UR sig nD τ) (Lvl := ℕ) c V' : sProp 𝕄) := by
  rw [Pipeline.unscopedBufs_split₀ cfgs 0 winFacts₀0.arr_unscoped c V', arrBufs_eq, arrays_eq3, h0, h1, h2]
  iintro ⟨⟨Hl, Hr, H2⟩, Hrest⟩
  isplitr [Hrest]
  · isplitr [H2]; swap; · iexact H2
    have hj : iprop((((c : Thread nD τ).loc main_v1) ↦{fullShare.left} V' main_v1) ∗ (((c : Thread nD τ).loc main_v1) ↦{fullShare.right} V' main_v1))
        ⊢ ((((c : Thread nD τ).loc main_v1) ↦{fullShare} V' main_v1 : sProp 𝕄)) :=
      (pointsTo_share (PosShare.mem_left_op_right fullShare)).2
    iapply hj
    isplitl [Hl] <;> iassumption
  · unfold Pipeline.unscopedRest
    iapply (Entails.of_eq (bigSep_congr fun b hb => by rw [hrest b (Finset.mem_sdiff.mp hb).2]))
    iexact Hrest

end Cert.Kernel.Hand

end
-- ==== Proof.RunBits.lean ====
/-
  The run of `Kernel`'s @main, segment by segment. @main is: two stretches of host operations (the concatenation of
  the two argument arrays and a zero; its conversion to a float and the padding of the embeddings with 24 zero rows), the
  kernel region, and one more host operation (the leading 5096 × 5096 block of every batch of the padded result).
  The thread state between segments is every unscoped buffer at a named valuation: `W0` the launch contents, `W1`, `W2`
  after the two host stretches, `W3` after the region — the result array at what the pipeline's write-backs leave, every
  other buffer as the region found it, since the region writes no other array — and `W4` after the slice. The region
  takes its arrays out of that state (the embeddings' ownership halved between the two windows that read it) and puts
  them back when it is left. The run's post: the result buffer at `W4`'s value, both arguments as launched.
-/
import proofs.«130516_j54829552501064_1_alg».proof.Proof.ShareBits
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
/-- The same read at the TensorCore's references: what the region's proof data take. -/
abbrev V2 : (c : Dev nD) → (b : Ref sig .tc) → Buf (Elt F) ((c : Thread nD τ).loc b) := fun c b => W2 m ρ c b
/-- At the region's exit: the result array at what the write-backs leave, every other buffer as entered. -/
def W3 (c : Dev nD) : Valuation τ sig (Elt F) :=
  Function.update (W2 m ρ c) (Proc.devRef .tc main_v2) ((dat0 (V2 m ρ) c).arrAt 2 cfg0.N)
theorem W3_v2 (c : Dev nD) : W3 m ρ c (Proc.devRef .tc main_v2) = (dat0 (V2 m ρ) c).arrAt 2 cfg0.N := by
  unfold W3; exact Function.update_self _ _ _
theorem W3_of_ne (c : Dev nD) (b : Ref sig .tc) (hb : b ≠ main_v2) :
    W3 m ρ c (Proc.devRef .tc b) = W2 m ρ c (Proc.devRef .tc b) := by
  unfold W3; exact Function.update_of_ne (StableHlo.devRef_ne_of_ne hb) _ _
abbrev V3 : (c : Dev nD) → (b : Ref sig .tc) → Buf (Elt F) ((c : Thread nD τ).loc b) := fun c b => W3 m ρ c b
abbrev W4 : Dev nD → Valuation τ sig (Elt F) := fun c => StableHlo.after hostOps1 (W3 m ρ c)

/-- At the region's exit each input window's array holds what it held at entry, -/
theorem hF0_0 (c : Dev nD) : (dat0 (V2 m ρ) c).arrAt 0 cfg0.N = V3 m ρ c main_v1 :=
  (((dat0 (V2 m ρ) c).arrAt_in 0 rfl _).trans (A_eq0 (V2 m ρ) c 0)).trans (W3_of_ne m ρ c main_v1 (by decide)).symm
theorem hF0_1 (c : Dev nD) : (dat0 (V2 m ρ) c).arrAt 1 cfg0.N = V3 m ρ c main_v1 :=
  (((dat0 (V2 m ρ) c).arrAt_in 1 rfl _).trans (A_eq0 (V2 m ρ) c 1)).trans (W3_of_ne m ρ c main_v1 (by decide)).symm
/-- the output's what the write-backs leave, -/
theorem hF0_2 (c : Dev nD) : (dat0 (V2 m ρ) c).arrAt 2 cfg0.N = V3 m ρ c main_v2 := (W3_v2 m ρ c).symm
/-- and every other buffer what it held at entry. -/
theorem hrest0 (c : Dev nD) : ∀ b, b ∉ Finset.univ.image (Pipeline.arrRef spec0) → V3 m ρ c b = V2 m ρ c b :=
  fun b hb => W3_of_ne m ρ c b fun e => hb (e ▸ Finset.mem_image.mpr ⟨2, Finset.mem_univ _, rfl⟩)

/-! ### The arguments end as launched: no host operation and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps0_1, List.Forall, StableHlo.TRef.unary, StableHlo.TRef.binary, StableHlo.nullary_writes, StableHlo.unary_writes, StableHlo.binary_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps0_1, List.Forall, StableHlo.TRef.unary, StableHlo.TRef.binary, StableHlo.nullary_writes, StableHlo.unary_writes, StableHlo.binary_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg1) := rfl

/-! ## The proof data family and the thread state -/

abbrev adm : (p : Fin 1) → (pcfgs (F := F) p).Adm := fun p => (cfgs p).toPCfg_adm
/-- The pipeline's proof data at the region's entry contents. -/
def pdats : (p : Fin 1) → (c : Dev nD) → Dat τ (Elt F) Unit ℕ (UR sig nD τ) ℕ (Pipeline.pin (pcfgs (F := F)) adm p) c
  | ⟨0, _⟩ => fun c => dat0 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The region as a segment -/

set_option backward.isDefEq.respectTransparency.types false in
/-- The region over the thread state: entered from every unscoped buffer at `W2`, left at `W3`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := arrays_entry (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := arrays_exit (V2 m ρ) c (V3 m ρ c) ((dat0 (V2 m ρ) c).arrAt · cfg0.N) (hF0_0 m ρ c) (hF0_1 m ρ c) (hF0_2 m ρ c) (hrest0 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, with
    the result buffer at the last boundary's contents and both arguments as launched. -/
theorem run_main : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitr [HO]; swap; · iexact HO
      isplitl [Hh]; · iexact Hh
      iexact Hp⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3 (by decide)),
       (h c _ (mem_uc main_arg0 (by decide))).trans (W4_main_arg0 m ρ c),
       (h c _ (mem_uc main_arg1 (by decide))).trans (W4_main_arg1 m ρ c)⟩)

end Cert.Kernel.Hand

end
-- ==== Proof.BodyIdeal.lean ====
/-
  The kernel region of `KernelIdeal` at a parameter `V`, the TensorCore's buffer contents when the region is entered.
  The grid has 4 × 4 × 4 points `(b, i, j)`. Window 0 hands the body rows `1280·i … 1280·i + 1279` of batch `b` of the padded
  embeddings, window 1 rows `1280·j …` of the SAME array, and window 2 takes back the `1280 × 1280` tile `(i, j)` of
  batch `b` of the result. The body reads both input blocks whole, reads the output buffer (a value it never uses) and
  stores the whole output block: so after the body each input buffer still holds its block and the output buffer holds
  the body's one payload of the two blocks. Stated here: the blocks, the body's triple, the proof data of the pipeline
  and its obligation at every point. The two input windows each hold one HALF of the shared array's ownership.
-/
import proofs.«130516_j54829552501064_1_alg».proof.Proof.Gen.KernelIdeal.Launch
import proofs.«130516_j54829552501064_1_alg».proof.Proof.Gen.KernelIdeal.Skeleton
import proofs.«130516_j54829552501064_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rIn : Rect S1x1280x64 := Rect.unit (s := S1x1280x64) ![0, 0, 0] S1x1280x64.size inb_S1x1280x64_S1x1280x64_0_0_0
abbrev rOut : Rect S1x1280x1280 := Rect.unit (s := S1x1280x1280) ![0, 0, 0] S1x1280x1280.size inb_S1x1280x1280_S1x1280x1280_0_0_0

/-- The output buffer after the body, from the two input blocks: its one store as a piece. -/
def out0_2 (i : grid0.Coords) (x0 x1 : Vec F S1x1280x64 .f32) : Vec F S1x1280x1280 .f32 :=
  View.canon [⟨rOut, k0_pay1 i (View.ld x0 rIn) (View.ld x1 rIn)⟩]

/-- The one store covers the buffer. -/
theorem cover0_2 (p0 : Vec F S1x1280x1280 .f32) (y : S1x1280x1280.Idx) :
    ∃ pc ∈ ([⟨rOut, p0⟩] : List (View.Piece (Elt F) S1x1280x1280 .f32)), y ∈ pc.1.set :=
  View.cover_of_tiled [⟨rOut, p0⟩] S1x1280x1280.size (by rfl) y

/-! ## The body's triple -/

set_option maxHeartbeats 4000000 in
/-- The kernel body on whole staging memrefs, the inputs' at contents `x0`, `x1` and the output's at anything, runs to
    the continuation holding the inputs' as they were and the output's at `out0_2` of them. -/
theorem sound_kernel0 (c : Dev nD) (E : Set ℕ) (i : grid0.Coords)
    (arg3 : Memref sig .tc .vmem S1x1280x64 .f32) (harg3 : arg3.IsWhole) (arg4 : Memref sig .tc .vmem S1x1280x64 .f32) (harg4 : arg4.IsWhole)
    (arg5 : Memref sig .tc .vmem S1x1280x1280 .f32) (harg5 : arg5.IsWhole)
    (x0 x1 : Vec F S1x1280x64 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out0_2 i x0 x1)) -∗ K ⟨⟩))
      ⊢ wp frame (wpE (defs₀ (F := F)) Variants.none c none) E (cc0__stgraph_kernel i arg3 harg3 arg4 harg4 arg5 harg5) K := by
  simp only [cc0__stgraph_kernel_eq_skeleton]; unfold cc0__stgraph_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them; after the body at point `t` each
    input's buffer at its block and the output's at `out0_2` of the two blocks; the invariant the scoped rest and the
    generator register, untouched; nothing owed; the shared input array held half by window 0 and half by window 1. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (grid0.coords t) (iblk0 V c 0 t) (iblk0 V c 1 t)
  Φ _ := Pipeline.ΦA spec0 c
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (grid0.coords t) (iblk0 V c 0 t) (iblk0 V c 1 t) := by dsimp only [dat0]

theorem q0_0 (c : Dev nD) : (dat0 V c).q 0 = fullShare.left := by dsimp only [dat0]
theorem q0_1 (c : Dev nD) : (dat0 V c).q 1 = fullShare.right := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.ShareIdeal.lean ====
/-
  One array behind two windows. The padded embeddings are read by window 0 (rows of the tile's row block) and by
  window 1 (rows of its column block). When the region is entered the array is owned whole; the pipeline wants each
  input window's array at that window's share, so the whole ownership is split in two halves, one per window, and the
  two halves are joined again when the region is left (neither window writes its array, so both halves still hold the
  entry contents). The output's array is a buffer of its own, owned whole throughout.
-/
import proofs.«130516_j54829552501064_1_alg».proof.Proof.BodyIdeal
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the three windows' arrays are two: the padded embeddings and the result. -/
theorem arrBufs_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_v1) ↦{fullShare} V' main_v1) ∗ (((c : Thread nD τ).loc main_v2) ↦{fullShare} V' main_v2)) := by
  unfold Pipeline.arrBufs
  exact bigSep_eq_bigSepL_of_eq [main_v1, main_v2] (by decide) (by decide) _

theorem share0_0 (c : Dev nD) : (dat0 V c).share 0 = fullShare.left := by
  unfold Dat.share; rw [if_neg (by decide)]; exact q0_0 V c
theorem share0_1 (c : Dev nD) : (dat0 V c).share 1 = fullShare.right := by
  unfold Dat.share; rw [if_neg (by decide)]; exact q0_1 V c
theorem share0_2 (c : Dev nD) : (dat0 V c).share 2 = fullShare := by
  unfold Dat.share; rw [if_pos (by decide)]

/-- The pipeline's arrays at contents `G`, window by window: the embeddings' two halves and the result whole. -/
theorem arrays_eq3 (c : Dev nD) (G : (w : Fin cfg0.W) → Buf (Elt F) ((cfg0.win w).arr.view.loc (c : Thread nD τ))) :
    ((dat0 V c).arrays G : sProp 𝕄)
      = iprop((((c : Thread nD τ).loc main_v1) ↦{fullShare.left} G 0) ∗ (((c : Thread nD τ).loc main_v1) ↦{fullShare.right} G 1)
          ∗ (((c : Thread nD τ).loc main_v2) ↦{fullShare} G 2)) := by
  unfold Dat.arrays
  rw [bigSep_W0, share0_0, share0_1, share0_2, (arr_whole0 0).set_eq_univ, (arr_whole0 2).set_eq_univ]

/-- ENTRY: every unscoped buffer at `V` gives the pipeline's arrays at their entry contents (the embeddings' ownership
    halved between the two windows that read it) and the rest. -/
theorem arrays_entry (c : Dev nD) :
    (unscopedBufs (Ix := Unit) (Name := ℕ) (U := UR sig nD τ) (Lvl := ℕ) c (V c) : sProp 𝕄)
      ⊢ iprop((dat0 V c).arrays ((dat0 V c).arrAt · 0)
          ∗ Pipeline.unscopedRest (Ix := Unit) (Name := ℕ) (U := UR sig nD τ) (Lvl := ℕ) spec0 c (V c)) := by
  rw [Pipeline.unscopedBufs_split₀ cfgs 0 winFacts₀0.arr_unscoped c (V c), arrBufs_eq, arrays_eq3]
  iintro ⟨⟨H1, H2⟩, Hr⟩
  isplitr [Hr]; swap; · iexact Hr
  have hs : ((((c : Thread nD τ).loc main_v1) ↦{fullShare} V c main_v1 : sProp 𝕄))
      ⊢ iprop((((c : Thread nD τ).loc main_v1) ↦{fullShare.left} V c main_v1) ∗ (((c : Thread nD τ).loc main_v1) ↦{fullShare.right} V c main_v1)) :=
    (pointsTo_share (PosShare.mem_left_op_right fullShare)).1
  ihave H := hs $$ H1
  icases H with ⟨Hl, Hrr⟩
  isplitl [Hl]; · iexact Hl
  isplitl [Hrr]; · iexact Hrr
  iexact H2

/-- EXIT: the pipeline's arrays at contents `G` — the two halves of the embeddings at one and the same contents — and
    the rest at `V` are every unscoped buffer at any valuation `V'` that has the arrays at `G` and agrees with `V` off them. -/
theorem arrays_exit (c : Dev nD) (V' : (b : Ref sig .tc) → Buf (Elt F) ((c : Thread nD τ).loc b))
    (G : (w : Fin cfg0.W) → Buf (Elt F) ((cfg0.win w).arr.view.loc (c : Thread nD τ)))
    (h0 : G 0 = V' main_v1) (h1 : G 1 = V' main_v1) (h2 : G 2 = V' main_v2)
    (hrest : ∀ b, b ∉ Finset.univ.image (Pipeline.arrRef spec0) → V' b = V c b) :
    iprop((dat0 V c).arrays G ∗ Pipeline.unscopedRest (Ix := Unit) (Name := ℕ) (U := UR sig nD τ) (Lvl := ℕ) spec0 c (V c))
      ⊢ (unscopedBufs (Ix := Unit) (Name := ℕ) (U := UR sig nD τ) (Lvl := ℕ) c V' : sProp 𝕄) := by
  rw [Pipeline.unscopedBufs_split₀ cfgs 0 winFacts₀0.arr_unscoped c V', arrBufs_eq, arrays_eq3, h0, h1, h2]
  iintro ⟨⟨Hl, Hr, H2⟩, Hrest⟩
  isplitr [Hrest]
  · isplitr [H2]; swap; · iexact H2
    have hj : iprop((((c : Thread nD τ).loc main_v1) ↦{fullShare.left} V' main_v1) ∗ (((c : Thread nD τ).loc main_v1) ↦{fullShare.right} V' main_v1))
        ⊢ ((((c : Thread nD τ).loc main_v1) ↦{fullShare} V' main_v1 : sProp 𝕄)) :=
      (pointsTo_share (PosShare.mem_left_op_right fullShare)).2
    iapply hj
    isplitl [Hl] <;> iassumption
  · unfold Pipeline.unscopedRest
    iapply (Entails.of_eq (bigSep_congr fun b hb => by rw [hrest b (Finset.mem_sdiff.mp hb).2]))
    iexact Hrest

end Cert.KernelIdeal.Hand

end
-- ==== Proof.RunIdeal.lean ====
/-
  The run of `KernelIdeal`'s @main, segment by segment. @main is: two stretches of host operations (the concatenation of
  the two argument arrays and a zero; its conversion to a float and the padding of the embeddings with 24 zero rows), the
  kernel region, and one more host operation (the leading 5096 × 5096 block of every batch of the padded result).
  The thread state between segments is every unscoped buffer at a named valuation: `W0` the launch contents, `W1`, `W2`
  after the two host stretches, `W3` after the region — the result array at what the pipeline's write-backs leave, every
  other buffer as the region found it, since the region writes no other array — and `W4` after the slice. The region
  takes its arrays out of that state (the embeddings' ownership halved between the two windows that read it) and puts
  them back when it is left. The run's post: the result buffer at `W4`'s value, both arguments as launched.
-/
import proofs.«130516_j54829552501064_1_alg».proof.Proof.ShareIdeal
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
/-- The same read at the TensorCore's references: what the region's proof data take. -/
abbrev V2 : (c : Dev nD) → (b : Ref sig .tc) → Buf (Elt F) ((c : Thread nD τ).loc b) := fun c b => W2 m ρ c b
/-- At the region's exit: the result array at what the write-backs leave, every other buffer as entered. -/
def W3 (c : Dev nD) : Valuation τ sig (Elt F) :=
  Function.update (W2 m ρ c) (Proc.devRef .tc main_v2) ((dat0 (V2 m ρ) c).arrAt 2 cfg0.N)
theorem W3_v2 (c : Dev nD) : W3 m ρ c (Proc.devRef .tc main_v2) = (dat0 (V2 m ρ) c).arrAt 2 cfg0.N := by
  unfold W3; exact Function.update_self _ _ _
theorem W3_of_ne (c : Dev nD) (b : Ref sig .tc) (hb : b ≠ main_v2) :
    W3 m ρ c (Proc.devRef .tc b) = W2 m ρ c (Proc.devRef .tc b) := by
  unfold W3; exact Function.update_of_ne (StableHlo.devRef_ne_of_ne hb) _ _
abbrev V3 : (c : Dev nD) → (b : Ref sig .tc) → Buf (Elt F) ((c : Thread nD τ).loc b) := fun c b => W3 m ρ c b
abbrev W4 : Dev nD → Valuation τ sig (Elt F) := fun c => StableHlo.after hostOps1 (W3 m ρ c)

/-- At the region's exit each input window's array holds what it held at entry, -/
theorem hF0_0 (c : Dev nD) : (dat0 (V2 m ρ) c).arrAt 0 cfg0.N = V3 m ρ c main_v1 :=
  (((dat0 (V2 m ρ) c).arrAt_in 0 rfl _).trans (A_eq0 (V2 m ρ) c 0)).trans (W3_of_ne m ρ c main_v1 (by decide)).symm
theorem hF0_1 (c : Dev nD) : (dat0 (V2 m ρ) c).arrAt 1 cfg0.N = V3 m ρ c main_v1 :=
  (((dat0 (V2 m ρ) c).arrAt_in 1 rfl _).trans (A_eq0 (V2 m ρ) c 1)).trans (W3_of_ne m ρ c main_v1 (by decide)).symm
/-- the output's what the write-backs leave, -/
theorem hF0_2 (c : Dev nD) : (dat0 (V2 m ρ) c).arrAt 2 cfg0.N = V3 m ρ c main_v2 := (W3_v2 m ρ c).symm
/-- and every other buffer what it held at entry. -/
theorem hrest0 (c : Dev nD) : ∀ b, b ∉ Finset.univ.image (Pipeline.arrRef spec0) → V3 m ρ c b = V2 m ρ c b :=
  fun b hb => W3_of_ne m ρ c b fun e => hb (e ▸ Finset.mem_image.mpr ⟨2, Finset.mem_univ _, rfl⟩)

/-! ### The arguments end as launched: no host operation and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps0_1, List.Forall, StableHlo.TRef.unary, StableHlo.TRef.binary, StableHlo.nullary_writes, StableHlo.unary_writes, StableHlo.binary_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps0_1, List.Forall, StableHlo.TRef.unary, StableHlo.TRef.binary, StableHlo.nullary_writes, StableHlo.unary_writes, StableHlo.binary_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))
    _ = m ((c : Thread nD τ).loc main_arg1) := rfl

/-! ## The proof data family and the thread state -/

abbrev adm : (p : Fin 1) → (pcfgs (F := F) p).Adm := fun p => (cfgs p).toPCfg_adm
/-- The pipeline's proof data at the region's entry contents. -/
def pdats : (p : Fin 1) → (c : Dev nD) → Dat τ (Elt F) Unit ℕ (UR sig nD τ) ℕ (Pipeline.pin (pcfgs (F := F)) adm p) c
  | ⟨0, _⟩ => fun c => dat0 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The region as a segment -/

set_option backward.isDefEq.respectTransparency.types false in
/-- The region over the thread state: entered from every unscoped buffer at `W2`, left at `W3`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := arrays_entry (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := arrays_exit (V2 m ρ) c (V3 m ρ c) ((dat0 (V2 m ρ) c).arrAt · cfg0.N) (hF0_0 m ρ c) (hF0_1 m ρ c) (hF0_2 m ρ c) (hrest0 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, with
    the result buffer at the last boundary's contents and both arguments as launched. -/
theorem run_main : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitr [HO]; swap; · iexact HO
      isplitl [Hh]; · iexact Hh
      iexact Hp⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3 (by decide)),
       (h c _ (mem_uc main_arg0 (by decide))).trans (W4_main_arg0 m ρ c),
       (h c _ (mem_uc main_arg1 (by decide))).trans (W4_main_arg1 m ρ c)⟩)

end Cert.KernelIdeal.Hand

end
-- ==== Proof.PayValue.lean ====
/-
  The kernel body's one payload read at an index, at the ideal values (a float an extended real).

  At grid point i the body loads two [1, 1280, 64] blocks x0 and x1, drops their unit axis, changes format (the
  identity here), multiplies them contracting the second axis of both into a zero accumulator, takes the maximum with
  0, adds the identity block — 1 where global row i₁·1280 + p equals global column i₂·1280 + q, else 0 —, takes the
  hyperbolic tangent and restores the unit axis. So entry (0, p, q) of what it stores is

      tanh (max (∑ d, x0[0, p, d] · x1[0, q, d]) 0 + [i₁·1280 + p = i₂·1280 + q]).

  The parts: the integer fact (the 32-bit row and column words do not wrap, since every coordinate is below 5120),
  the matrix product at an index as the sum over the contracted coordinate, a block row read through the cast, the
  identity block at an index, and the payload itself.
-/
import proofs.«130516_j54829552501064_1_alg».proof.Proof.Gen.KernelIdeal.Skeleton
import Idealize.ShloMosaic.Lib.ValueIdx
import Idealize.ShloMosaic.Lib.ValueLayout
import Idealize.ShloMosaic.PureOps.Ideal.Laws

set_option synthInstance.maxSize 4096

noncomputable section

namespace Cert.KernelIdeal.PayValue

open Idealize.ShloMosaic Idealize.SL.Sem Idealize.ShloMosaic.ValueIdx
open scoped BigOperators

/-! ## The integer part -/

/-- With a block coordinate below 4 and a coordinate inside the block below 1280, the 32-bit words
    "coordinate + block × 1280" do not wrap: two of them are equal exactly when the naturals are. -/
theorem word_eq_iff (a b p q : Nat) (ha : a < 4) (hb : b < 4) (hp : p < 1280) (hq : q < 1280) :
    (BitVec.ofNat 32 p + BitVec.ofNat 32 a * 1280#32 = BitVec.ofNat 32 q + BitVec.ofNat 32 b * 1280#32)
      ↔ a * 1280 + p = b * 1280 + q := by
  rw [← BitVec.toNat_inj]
  simp only [BitVec.toNat_add, BitVec.toNat_mul, BitVec.toNat_ofNat]
  omega

/-- The one-bit answer of an equality test, widened unsigned to 32 bits and read as a signed integer,
    is the real 1 where the words are equal and 0 where they are not. -/
theorem eye_word (x y : BitVec 32) :
    ((((IntOp.cmpi .eq x y).setWidth 32).toInt : ℝ) : EReal) = if x = y then ((1 : ℝ) : EReal) else ((0 : ℝ) : EReal) := by
  show ((((BitVec.ofBool (x == y)).setWidth 32).toInt : ℝ) : EReal) = _
  by_cases h : x = y
  · have e : ((BitVec.ofBool true).setWidth 32).toInt = 1 := by decide
    rw [if_pos h, beq_iff_eq.mpr h, e, Int.cast_one]
  · have e : ((BitVec.ofBool false).setWidth 32).toInt = 0 := by decide
    rw [if_neg h, beq_eq_false_iff_ne.mpr h, e, Int.cast_zero]

/-! ## The matrix product

The operand indices of the product at output index j and contraction index k, one axis at a time: the left operand's
row is j's row, the right operand's row is j's column, and the second axis of each is k's one coordinate. -/

theorem lhs_dot_0 (j : S1280x1280.Idx) (k : dot_S1280x64_S1280x64_S1280x1280_1_1_0_0_n_n.contr.Idx) :
    (dot_S1280x64_S1280x64_S1280x1280_1_1_0_0_n_n.lhsIdx j k 0).val = (j 0).val := by
  unfold DotDims.lhsIdx
  rw [dif_neg (show ¬(0 : Fin S1280x64.rank) ∈ dot_S1280x64_S1280x64_S1280x1280_1_1_0_0_n_n.lhsBatch by decide), dif_pos (show (0 : Fin S1280x64.rank) ∈ dot_S1280x64_S1280x64_S1280x1280_1_1_0_0_n_n.lhsNonContracting by decide)]
  rfl
theorem lhs_dot_1 (j : S1280x1280.Idx) (k : dot_S1280x64_S1280x64_S1280x1280_1_1_0_0_n_n.contr.Idx) :
    (dot_S1280x64_S1280x64_S1280x1280_1_1_0_0_n_n.lhsIdx j k 1).val = (k ⟨0, by decide⟩).val :=
  dot_S1280x64_S1280x64_S1280x1280_1_1_0_0_n_n.lhsIdx_val_of_single rfl j k
theorem rhs_dot_0 (j : S1280x1280.Idx) (k : dot_S1280x64_S1280x64_S1280x1280_1_1_0_0_n_n.contr.Idx) :
    (dot_S1280x64_S1280x64_S1280x1280_1_1_0_0_n_n.rhsIdx j k 0).val = (j 1).val := by
  unfold DotDims.rhsIdx
  rw [dif_neg (show ¬(0 : Fin S1280x64.rank) ∈ dot_S1280x64_S1280x64_S1280x1280_1_1_0_0_n_n.rhsBatch by decide), dif_pos (show (0 : Fin S1280x64.rank) ∈ dot_S1280x64_S1280x64_S1280x1280_1_1_0_0_n_n.rhsNonContracting by decide)]
  rfl
theorem rhs_dot_1 (j : S1280x1280.Idx) (k : dot_S1280x64_S1280x64_S1280x1280_1_1_0_0_n_n.contr.Idx) :
    (dot_S1280x64_S1280x64_S1280x1280_1_1_0_0_n_n.rhsIdx j k 1).val = (k ⟨0, by decide⟩).val :=
  dot_S1280x64_S1280x64_S1280x1280_1_1_0_0_n_n.rhsIdx_val_of_single rfl j k

/-- Both operands contract their second axis, into a zero accumulator: entry (p, q) of the product is the sum over d
    of (row p of the left operand at d) times (row q of the right operand at d). -/
theorem matmul_at (L R : FVec Ideal S1280x64 .bf16) (p q : Fin 1280) :
    FloatOps.matmul dot_S1280x64_S1280x64_S1280x1280_1_1_0_0_n_n none L R (constant (F := Ideal) S1280x1280 .f32 0x00000000#32) (ix2 p q)
      = ∑ d : Fin 64, L (ix2 p d) * R (ix2 q d) := by
  rw [Ideal.matmul_constant_zero_apply, ← Equiv.sum_comp (contrEquiv1 dot_S1280x64_S1280x64_S1280x1280_1_1_0_0_n_n 64 rfl rfl).symm]
  refine Finset.sum_congr rfl fun k _ => ?_
  have hk := contrEquiv1_symm_val dot_S1280x64_S1280x64_S1280x1280_1_1_0_0_n_n 64 rfl rfl k
  have el : dot_S1280x64_S1280x64_S1280x1280_1_1_0_0_n_n.lhsIdx (ix2 p q) ((contrEquiv1 dot_S1280x64_S1280x64_S1280x1280_1_1_0_0_n_n 64 rfl rfl).symm k) = ix2 p k := funext fun a => Fin.ext (by
    match a with
    | ⟨0, _⟩ => exact lhs_dot_0 _ _
    | ⟨1, _⟩ => exact (lhs_dot_1 _ _).trans hk)
  have er : dot_S1280x64_S1280x64_S1280x1280_1_1_0_0_n_n.rhsIdx (ix2 p q) ((contrEquiv1 dot_S1280x64_S1280x64_S1280x1280_1_1_0_0_n_n 64 rfl rfl).symm k) = ix2 q k := funext fun a => Fin.ext (by
    match a with
    | ⟨0, _⟩ => exact rhs_dot_0 _ _
    | ⟨1, _⟩ => exact (rhs_dot_1 _ _).trans hk)
  rw [el, er]

/-! ## The payload at an index -/

/-- A row of a loaded block, read through the cast that drops its unit axis and the change of format (the identity on
    extended reals). -/
theorem block_at (x : Vec Ideal S1x1280x64 .f32) (p : Fin 1280) (d : Fin 64) :
    (truncf (F := Ideal) .bf16 (shapeCast S1280x64 x Gen.shapeCasts_S1x1280x64_S1280x64) Gen.bitsLt_bf16_f32) (ix2 p d)
      = x (ix3 (0 : Fin 1) p d) :=
  shapeCast_1ab_ab_apply x Gen.shapeCasts_S1x1280x64_S1280x64 p d

/-- The identity block: at (p, q) of grid point i, 1 where global row i₁·1280 + p equals global column i₂·1280 + q,
    else 0. -/
theorem eye_at (i : grid0.Coords) (p q : Fin 1280) :
    (sitofp (F := Ideal) .f32 (extui 32 (cmpi .eq
        (addi (iota .tc S1280x1280 32 [0] Gen.iota_S1280x1280_d0_w32) (broadcast S1280x1280 (Scalar.muli (BitVec.ofNat 32 (i 1).val) 1280#32)))
        (addi (iota .tc S1280x1280 32 [1] Gen.iota_S1280x1280_d1_w32) (broadcast S1280x1280 (Scalar.muli (BitVec.ofNat 32 (i 2).val) 1280#32))))
      Gen.natLt_1_32)) (ix2 p q)
    = if (i 1).val * 1280 + p.val = (i 2).val * 1280 + q.val then ((1 : ℝ) : EReal) else ((0 : ℝ) : EReal) := by
  have h1 : (i 1).val < 4 := (i 1).isLt
  have h2 : (i 2).val < 4 := (i 2).isLt
  show ((((IntOp.cmpi .eq (BitVec.ofNat 32 (0 * 1280 + p.val) + BitVec.ofNat 32 (i 1).val * 1280#32)
      (BitVec.ofNat 32 (0 * 1280 + q.val) + BitVec.ofNat 32 (i 2).val * 1280#32)).setWidth 32).toInt : ℝ) : EReal) = _
  rw [eye_word, Nat.zero_mul, Nat.zero_add, Nat.zero_add]
  exact if_congr (word_eq_iff _ _ _ _ h1 h2 p.isLt q.isLt) rfl rfl

/-- THE PAYLOAD AT AN INDEX: entry (0, p, q) of the block stored at grid point i. -/
theorem pay_apply (i : grid0.Coords) (x0 x1 : Vec Ideal S1x1280x64 .f32) (p q : Fin 1280) :
    Gen.k0_pay1 (F := Ideal) i x0 x1 (ix3 (0 : Fin 1) p q)
      = Ideal.tanh (max (∑ d : Fin 64, x0 (ix3 (0 : Fin 1) p d) * x1 (ix3 (0 : Fin 1) q d)) 0
          + (if (i 1).val * 1280 + p.val = (i 2).val * 1280 + q.val then ((1 : ℝ) : EReal) else ((0 : ℝ) : EReal))) := by
  unfold Gen.k0_pay1
  refine (shapeCast_ab_1ab_apply _ Gen.shapeCasts_S1280x1280_S1x1280x1280 (0 : Fin 1) p q).trans ?_
  show Ideal.tanh (max (FloatOps.matmul dot_S1280x64_S1280x64_S1280x1280_1_1_0_0_n_n none
        (truncf (F := Ideal) .bf16 (shapeCast S1280x64 x0 Gen.shapeCasts_S1x1280x64_S1280x64) Gen.bitsLt_bf16_f32)
        (truncf (F := Ideal) .bf16 (shapeCast S1280x64 x1 Gen.shapeCasts_S1x1280x64_S1280x64) Gen.bitsLt_bf16_f32)
        (constant (F := Ideal) S1280x1280 .f32 0x00000000#32) (ix2 p q)) (Ideal.ofBits .f32 0x00000000#32)
      + (sitofp (F := Ideal) .f32 (extui 32 (cmpi .eq
          (addi (iota .tc S1280x1280 32 [0] Gen.iota_S1280x1280_d0_w32) (broadcast S1280x1280 (Scalar.muli (BitVec.ofNat 32 (i 1).val) 1280#32)))
          (addi (iota .tc S1280x1280 32 [1] Gen.iota_S1280x1280_d1_w32) (broadcast S1280x1280 (Scalar.muli (BitVec.ofNat 32 (i 2).val) 1280#32))))
        Gen.natLt_1_32)) (ix2 p q)) = _
  rw [matmul_at, eye_at, Ideal.ofBits_zero_f32]
  simp only [block_at]

end Cert.KernelIdeal.PayValue

end
-- ==== Proof.Spec.lean ====
/-
  The adjacency both programs compute, as one function of the node embeddings.
  For node embeddings `X : [4, M, 64]` the entry at batch `b`, row `r`, column `c` is
  `tanh (max (∑ d, X[b,r,d] · X[b,c,d]) 0 + [r = c])`: a row Gram matrix, clamped below at zero, the
  identity added, squashed by the hyperbolic tangent. The same formula is stated at any row count `M`, because the
  kernel computes it on the embeddings padded with zero rows and then keeps the leading block.
-/
import Idealize.ShloMosaic.PureOps.Ideal
import Idealize.ShloMosaic.Lib.ValueIdx

noncomputable section

open scoped BigOperators

namespace Cert.Spec

open Idealize.ShloMosaic Idealize.ShloMosaic.ValueIdx

/-- One entry of the adjacency of `M` nodes with 64 features in each of 4 batches. -/
def adj {M : Nat} (X : (⟨3, ![4, M, 64]⟩ : Shape).Idx → EReal) (b : Fin 4) (r c : Fin M) : EReal :=
  Ideal.tanh (max (∑ d : Fin 64, X (ix3 b r d) * X (ix3 b c d)) 0 + (if r.val = c.val then ((1 : ℝ) : EReal) else ((0 : ℝ) : EReal)))

/-- The adjacency as an array. -/
def adjArr {M : Nat} (X : (⟨3, ![4, M, 64]⟩ : Shape).Idx → EReal) : (⟨3, ![4, M, M]⟩ : Shape).Idx → EReal :=
  fun i => adj X (i 0) (i 1) (i 2)

theorem adjArr_apply {M : Nat} (X : (⟨3, ![4, M, 64]⟩ : Shape).Idx → EReal) (b : Fin 4) (r c : Fin M) :
    adjArr X (ix3 b r c) = adj X b r c := rfl

/-- Rows past the first `M` of a taller embedding do not enter the leading `M × M` block: if `P` agrees with `X`
    on the first `M` rows, their adjacencies agree there. -/
theorem adj_of_agree {M M' : Nat} (h : M ≤ M') (X : (⟨3, ![4, M, 64]⟩ : Shape).Idx → EReal)
    (P : (⟨3, ![4, M', 64]⟩ : Shape).Idx → EReal)
    (hP : ∀ (b : Fin 4) (r : Fin M) (d : Fin 64), P (ix3 b ⟨r.val, Nat.lt_of_lt_of_le r.isLt h⟩ d) = X (ix3 b r d))
    (b : Fin 4) (r c : Fin M) :
    adj P b ⟨r.val, Nat.lt_of_lt_of_le r.isLt h⟩ ⟨c.val, Nat.lt_of_lt_of_le c.isLt h⟩ = adj X b r c := by
  unfold adj
  simp only [hP]

end Cert.Spec

end
-- ==== Proof.FinalArray.lean ====
/-
  From the blocks the grid's points write back to the whole result array, at the ideal values.

  The grid has 4 × 4 × 4 points (b, i, j). Point (b, i, j) reads rows 1280·i … 1280·i + 1279 and rows 1280·j … 1280·j + 1279
  of batch b of the padded embeddings P : [4, 5120, 64] and writes back the 1280 × 1280 tile (i, j) of batch b of the
  result : [4, 5120, 5120]. Entry (0, p, q) of what it writes is

      tanh (max (∑ d, P[b, 1280·i + p, d] · P[b, 1280·j + q, d]) 0 + [1280·i + p = 1280·j + q]),

  which is entry (b, 1280·i + p, 1280·j + q) of the adjacency of P. The 64 tiles fill the result, every point writes
  its tile back, so the result array ends holding the adjacency of P.
-/
import proofs.«130516_j54829552501064_1_alg».proof.Proof.BodyIdeal
import proofs.«130516_j54829552501064_1_alg».proof.Proof.PayValue
import proofs.«130516_j54829552501064_1_alg».proof.Proof.Spec
import Idealize.ShloMosaic.Lib.Pipeline.Value
import Idealize.ShloMosaic.Lib.ValueIdx

set_option maxRecDepth 16384

noncomputable section

namespace Cert.KernelIdeal.FinalArray

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz : (![0, 0, 0] : Fin 3 → Nat) = fun _ => 0 := funext fun a => by fin_cases a <;> rfl

/-- The printed index maps, decided over the grid: at the point of coordinates (b, i, j) window 0's block is
    (b, i, 0), window 1's (b, j, 0) and window 2's (b, i, j). -/
theorem idx_facts : ∀ t : Fin cfg0.N, win0_0.index t (0 : Fin 3) = (grid0.coords t 0).val
    ∧ win0_0.index t (1 : Fin 3) = (grid0.coords t 1).val
    ∧ win0_0.index t (2 : Fin 3) = 0
    ∧ win0_1.index t (0 : Fin 3) = (grid0.coords t 0).val
    ∧ win0_1.index t (1 : Fin 3) = (grid0.coords t 2).val
    ∧ win0_1.index t (2 : Fin 3) = 0
    ∧ win0_2.index t (0 : Fin 3) = (grid0.coords t 0).val
    ∧ win0_2.index t (1 : Fin 3) = (grid0.coords t 1).val
    ∧ win0_2.index t (2 : Fin 3) = (grid0.coords t 2).val :=
  (by decide +kernel : ∀ t : Fin grid0.N, _)

/-- Every tile of the result is some point's. -/
theorem idx_onto : ∀ (q0 q1 q2 : Fin 4), ∃ t : Fin cfg0.N, win0_2.index t = ![q0.val, q1.val, q2.val] :=
  (by decide +kernel : ∀ (q0 q1 q2 : Fin 4), ∃ t : Fin grid0.N, win0_2.index t = ![q0.val, q1.val, q2.val])

/-- An index of a block with a leading unit axis is (0, p, q). -/
theorem exists_ix3_unit {n1 n2 : Nat} (j : (⟨3, ![1, n1, n2]⟩ : Shape).Idx) :
    ∃ (p : Fin n1) (q : Fin n2), j = ix3 (0 : Fin 1) p q :=
  ⟨j 1, j 2, funext fun a => by
    match a with
    | ⟨0, _⟩ => exact Fin.ext (by have h : (j 0).val < 1 := (j 0).isLt; show (j 0).val = 0; omega)
    | ⟨1, _⟩ => rfl
    | ⟨2, _⟩ => rfl⟩

/-! ## One entry of one tile -/

/-- The payload of two blocks that are the rows i₁·1280 + · and i₂·1280 + · of batch b of P, at (0, p, q): the
    adjacency of P at batch b, row i₁·1280 + p, column i₂·1280 + q. -/
theorem pay_adj (P : S4x5120x64.Idx → EReal) (x0 x1 : Vec Ideal S1x1280x64 .f32) (i : grid0.Coords) (b : Fin 4)
    (r s : Fin 5120) (p q : Fin 1280)
    (hr : r.val = (i 1).val * 1280 + p.val) (hs : s.val = (i 2).val * 1280 + q.val)
    (h0 : ∀ d : Fin 64, x0 (ix3 (0 : Fin 1) p d) = P (ix3 b r d))
    (h1 : ∀ d : Fin 64, x1 (ix3 (0 : Fin 1) q d) = P (ix3 b s d)) :
    k0_pay1 (F := Ideal) i x0 x1 (ix3 (0 : Fin 1) p q) = Cert.Spec.adj P b r s := by
  rw [PayValue.pay_apply]
  unfold Cert.Spec.adj
  simp only [h0, h1, hr, hs]

/-- Window 0's block at point t is rows 1280·i + · of batch b of the embeddings, (b, i, j) the point's coordinates. -/
theorem blk0_apply (c : Dev nD) (t : Fin cfg0.N) (y : S1x1280x64.Idx) (k : S4x5120x64.Idx)
    (hk0 : (k 0).val = (grid0.coords t 0).val) (hk1 : (k 1).val = (grid0.coords t 1).val * 1280 + (y 1).val)
    (hk2 : (k 2).val = (y 2).val) :
    (Hand.iblk0 V c 0 t : Vec Ideal S1x1280x64 .f32) y = (V c main_v1 : S4x5120x64.Idx → EReal) k := by
  obtain ⟨e0, e1, e2, -⟩ := idx_facts t
  have hy0 : (y 0).val < 1 := (y 0).isLt
  show (V c main_v1 : S4x5120x64.Idx → EReal) (((cfg0.win 0).blk t).view.emb y) = _
  congr 1
  funext a
  apply Fin.ext
  match a with
  | ⟨0, _⟩ => show win0_0.index t (0 : Fin 3) * 1 + 1 * (y 0).val = (k 0).val; omega
  | ⟨1, _⟩ => show win0_0.index t (1 : Fin 3) * 1280 + 1 * (y 1).val = (k 1).val; omega
  | ⟨2, _⟩ => show win0_0.index t (2 : Fin 3) * 64 + 1 * (y 2).val = (k 2).val; omega

/-- Window 1's block at point t is rows 1280·j + · of batch b of the same array. -/
theorem blk1_apply (c : Dev nD) (t : Fin cfg0.N) (y : S1x1280x64.Idx) (k : S4x5120x64.Idx)
    (hk0 : (k 0).val = (grid0.coords t 0).val) (hk1 : (k 1).val = (grid0.coords t 2).val * 1280 + (y 1).val)
    (hk2 : (k 2).val = (y 2).val) :
    (Hand.iblk0 V c 1 t : Vec Ideal S1x1280x64 .f32) y = (V c main_v1 : S4x5120x64.Idx → EReal) k := by
  obtain ⟨-, -, -, e0, e1, e2, -⟩ := idx_facts t
  have hy0 : (y 0).val < 1 := (y 0).isLt
  show (V c main_v1 : S4x5120x64.Idx → EReal) (((cfg0.win 1).blk t).view.emb y) = _
  congr 1
  funext a
  apply Fin.ext
  match a with
  | ⟨0, _⟩ => show win0_1.index t (0 : Fin 3) * 1 + 1 * (y 0).val = (k 0).val; omega
  | ⟨1, _⟩ => show win0_1.index t (1 : Fin 3) * 1280 + 1 * (y 1).val = (k 1).val; omega
  | ⟨2, _⟩ => show win0_1.index t (2 : Fin 3) * 64 + 1 * (y 2).val = (k 2).val; omega

/-- Entry j of what point t stores is the adjacency of the embeddings at the array index of j in t's tile. -/
theorem tile_at (c : Dev nD) (t : Fin cfg0.N) (j : S1x1280x1280.Idx) :
    k0_pay1 (F := Ideal) (grid0.coords t) (Hand.iblk0 V c 0 t) (Hand.iblk0 V c 1 t) j
      = Cert.Spec.adjArr (V c main_v1) (((cfg0.win 2).blk t).view.emb j) := by
  obtain ⟨p, q, rfl⟩ := exists_ix3_unit j
  obtain ⟨-, -, -, -, -, -, e0, e1, e2⟩ := idx_facts t
  have hb : (grid0.coords t 0).val < 4 := (grid0.coords t 0).isLt
  have hi : (grid0.coords t 1).val < 4 := (grid0.coords t 1).isLt
  have hj : (grid0.coords t 2).val < 4 := (grid0.coords t 2).isLt
  have hp : p.val < 1280 := p.isLt
  have hq : q.val < 1280 := q.isLt
  have hk : ((cfg0.win 2).blk t).view.emb (ix3 (0 : Fin 1) p q)
      = ix3 (⟨(grid0.coords t 0).val, hb⟩ : Fin 4) (⟨(grid0.coords t 1).val * 1280 + p.val, by omega⟩ : Fin 5120)
          (⟨(grid0.coords t 2).val * 1280 + q.val, by omega⟩ : Fin 5120) := by
    funext a
    apply Fin.ext
    match a with
    | ⟨0, _⟩ => show win0_2.index t (0 : Fin 3) * 1 + 1 * 0 = (grid0.coords t 0).val; omega
    | ⟨1, _⟩ => show win0_2.index t (1 : Fin 3) * 1280 + 1 * p.val = (grid0.coords t 1).val * 1280 + p.val; omega
    | ⟨2, _⟩ => show win0_2.index t (2 : Fin 3) * 1280 + 1 * q.val = (grid0.coords t 2).val * 1280 + q.val; omega
  rw [hk, Cert.Spec.adjArr_apply]
  refine pay_adj (V c main_v1) _ _ (grid0.coords t) _ _ _ p q rfl rfl (fun d => ?_) (fun d => ?_)
  · exact blk0_apply V c t _ _ rfl rfl rfl
  · exact blk1_apply V c t _ _ rfl rfl rfl

/-! ## What a point writes back, and the array -/

/-- WHAT POINT t WRITES BACK is its tile of the adjacency of the embeddings as the region finds them. -/
theorem flushed_eq (c : Dev nD) (t : Fin cfg0.N) :
    (Hand.dat0 V c).flushed 2 t = ((cfg0.win 2).blk t).view.read (Elt Ideal) (Cert.Spec.adjArr (V c main_v1)) := by
  show (cfg0.win 2).cut (grid0.coords t) ((Hand.dat0 V c).after 2 t) = _
  rw [Hand.after0_2]
  unfold Hand.out0_2
  rw [View.canon_unit_zero hz]
  simp only [View.ld_unit_zero (S := S1x1280x64) hz]
  funext j
  exact tile_at V c t j

/-- An index of the result is in point t's tile iff each coordinate is in the tile's range on its axis. -/
theorem mem_blk (t : Fin cfg0.N) (i : S4x5120x5120.Idx) :
    i ∈ ((cfg0.win 2).blk t).view.set ↔ ∀ a : Fin 3, win0_2.index t a * S1x1280x1280.size a ≤ (i a).val
      ∧ (i a).val < win0_2.index t a * S1x1280x1280.size a + S1x1280x1280.size a := by
  show i ∈ ((View.whole main_v2).slice (win0_2.rect t)).set ↔ _
  rw [View.set_slice_whole, Rect.mem_set_unit]
  exact Iff.rfl

/-- The tiles fill the result: index (b, r, s) is in the tile of the point (b, r / 1280, s / 1280), which writes back. -/
theorem cover (i : S4x5120x5120.Idx) :
    ∃ t : Fin cfg0.N, (cfg0.win 2).flush t = true ∧ i ∈ ((cfg0.win 2).blk t).view.set := by
  have hi0 : (i 0).val < 4 := (i 0).isLt
  have hi1 : (i 1).val < 5120 := (i 1).isLt
  have hi2 : (i 2).val < 5120 := (i 2).isLt
  obtain ⟨t, ht⟩ := idx_onto ⟨(i 0).val, hi0⟩ ⟨(i 1).val / 1280, by omega⟩ ⟨(i 2).val / 1280, by omega⟩
  have q0 : win0_2.index t (0 : Fin 3) = (i 0).val := congrFun ht 0
  have q1 : win0_2.index t (1 : Fin 3) = (i 1).val / 1280 := congrFun ht 1
  have q2 : win0_2.index t (2 : Fin 3) = (i 2).val / 1280 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1280 ≤ (i 1).val ∧ (i 1).val < win0_2.index t (1 : Fin 3) * 1280 + 1280; omega
  | ⟨2, _⟩ => show win0_2.index t (2 : Fin 3) * 1280 ≤ (i 2).val ∧ (i 2).val < win0_2.index t (2 : Fin 3) * 1280 + 1280; omega

/-- THE RESULT ARRAY after the region: the adjacency of the embeddings as the region finds them. -/
theorem final2 (c : Dev nD) : (Hand.dat0 (F := Ideal) V c).arrAt 2 cfg0.N = Cert.Spec.adjArr (V c main_v1) :=
  (Hand.dat0 V c).arrAt_eq_of_cover 2 _ (fun t _ => flushed_eq V c t) cover

end Cert.KernelIdeal.FinalArray

end
-- ==== Proof.KernelValue.lean ====
/-
  What the idealized kernel program returns, as one function of the argument arrays.
  The region's result array holds the adjacency of the PADDED embeddings (5120 rows, the last 24 of them zero); the host
  operation after the region keeps the leading 5096 × 5096 block of every batch. A padding row enters an entry of the
  adjacency only through that entry's own row or column, never through the sum over the 64 features, so the kept block
  is the adjacency of the unpadded embeddings — the concatenation of the two argument arrays along the node axis.
-/
import proofs.«130516_j54829552501064_1_alg».proof.Proof.RunIdeal
import proofs.«130516_j54829552501064_1_alg».proof.Proof.FinalArray
import proofs.«130516_j54829552501064_1_alg».proof.Proof.Spec
import Idealize.ShloMosaic.Lib.KernelVsHost
import Idealize.ShloMosaic.Lib.Pipeline.Value
import Idealize.ShloMosaic.Lib.ValueIdx
import Idealize.ShloMosaic.Lib.StableHlo.Run

set_option maxRecDepth 16384

noncomputable section

namespace Cert.KernelIdeal.HandValue

open Cert.KernelIdeal Cert.KernelIdeal.Gen
open Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The node embeddings: the two argument arrays joined along the node axis. -/
abbrev nodes (c : Dev nD) : S4x5096x64.Idx → EReal :=
  concatenate S4x5096x64 1 [⟨S4x5000x64, m ((c.tc : Thread nD τ).loc main_arg0)⟩, ⟨S4x96x64, m ((c.tc : Thread nD τ).loc main_arg1)⟩] concatenates_S4x5000x64_S4x96x64_S4x5096x64_d1

/-- The array both input windows read when the region is entered: the embeddings padded with 24 rows of the converted zero. -/
theorem entry_v1 (c : Dev nD) :
    (Hand.V2 (F := Ideal) m ρ c main_v1 : S4x5120x64.Idx → EReal)
      = pad S4x5120x64 ![0, 0, 0] ![0, 24, 0] ![0, 0, 0] (nodes m c) (sitofp (F := Ideal) .f32 (constantI S_ 32 0#32)) pads_S4x5096x64_S4x5120x64_000_0240_000 h_S_ := by
  show StableHlo.after hostOps0_1 (StableHlo.after hostOps0 _) (Proc.devRef .tc main_v1) = _
  after_results
  rfl

/-- The padded embeddings agree with the embeddings on the first 5096 rows. -/
theorem entry_v1_apply (c : Dev nD) (b : Fin 4) (r : Fin 5096) (d : Fin 64) :
    Hand.V2 (F := Ideal) m ρ c main_v1 (ix3 b ⟨r.val, Nat.lt_of_lt_of_le r.isLt (by decide)⟩ d) = nodes m c (ix3 b r d) := by
  rw [entry_v1]
  refine pad_apply_of_inside _ _ _ _ _ _ _ _ (ix3 b r d) fun a => ?_
  match a with
  | ⟨0, _⟩ => show b.val = 0 + b.val * (0 + 1); omega
  | ⟨1, _⟩ => show r.val = 0 + r.val * (0 + 1); omega
  | ⟨2, _⟩ => show d.val = 0 + d.val * (0 + 1); omega

/-- The result buffer after the last host operation is the leading block of the region's result array. -/
theorem result_v3 (c : Dev nD) :
    (Hand.W4 (F := Ideal) m ρ c (Proc.devRef .tc main_v3) : S4x5096x5096.Idx → EReal)
      = extractStridedSlice S4x5096x5096 ![0, 0, 0] ((Hand.dat0 (F := Ideal) (Hand.V2 m ρ) c).arrAt 2 cfg0.N) slices_S4x5120x5120_S4x5096x5096_0_0_0 := by
  rw [← Hand.W3_v2]
  show StableHlo.after hostOps1 _ (Proc.devRef .tc main_v3) = _
  after_results

/-- THE RESULT: the adjacency of the node embeddings. -/
theorem result_eq (c : Dev nD) :
    (Hand.W4 (F := Ideal) m ρ c (Proc.devRef .tc main_v3) : S4x5096x5096.Idx → EReal) = Cert.Spec.adjArr (nodes m c) := by
  rw [result_v3, FinalArray.final2]
  funext i
  obtain ⟨b, r, q, rfl⟩ : ∃ (b : Fin 4) (r q : Fin 5096), i = ix3 b r q := ⟨i 0, i 1, i 2, eq_ix3 i⟩
  refine (extractStridedSlice_apply _ _ _ (ix3 b r q)
    (ix3 b ⟨r.val, Nat.lt_of_lt_of_le r.isLt (by decide)⟩ ⟨q.val, Nat.lt_of_lt_of_le q.isLt (by decide)⟩) fun a => ?_).trans ?_
  · match a with
    | ⟨0, _⟩ => exact (Nat.zero_add _).symm
    | ⟨1, _⟩ => exact (Nat.zero_add _).symm
    | ⟨2, _⟩ => exact (Nat.zero_add _).symm
  · rw [Cert.Spec.adjArr_apply, Cert.Spec.adjArr_apply]
    exact Cert.Spec.adj_of_agree (by decide) (nodes m c) _ (entry_v1_apply m ρ c) b r q

/-- The run, read: the result buffer at the adjacency of the embeddings, both arguments as launched. -/
theorem run : θ_run defs (onTc (τ := τ) (main (F := Ideal))) ⟨m, fun _ => 0, ρ⟩ (fun r => ∀ c : Dev nD,
      r.2.mem ((c.tc : Thread nD τ).loc main_v3) = Cert.Spec.adjArr (nodes m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ c), (h c).2⟩) (Hand.run_main (F := Ideal) m ρ)

end Cert.KernelIdeal.HandValue

end
-- ==== Proof.RefSide.lean ====
/-
  The reference's result as the adjacency of the joined node embeddings.
  With X the two argument arrays joined along the row axis (4 batches, 5096 rows, 64 features; never opened here), the
  reference's entry at batch b, row r, column c is
    tanh (max (∑ d, X[b,r,d] · X[b,c,d]) 0 + [r = c]):
  the batched product of X with its own transpose read at an index is that sum over the 64 features; the lower clamp is
  against the float zero; and the added term is the one-bit word "row number + 0 = column number" converted to a float,
  which is 1 on the diagonal and 0 off it, since row and column numbers stay below 5096 and so never wrap around as 32-bit
  words. Over the extended reals this is entry by entry the specification's adjacency.
-/
import proofs.«130516_j54829552501064_1_alg».proof.Proof.Gen.ReferenceIdeal.Run
import proofs.«130516_j54829552501064_1_alg».proof.Proof.Gen.ReferenceIdeal.Read
import proofs.«130516_j54829552501064_1_alg».proof.Proof.Spec

noncomputable section

namespace Cert.RefSide

open Cert.ReferenceIdeal Cert.ReferenceIdeal.Gen Idealize.ShloMosaic Idealize.ShloMosaic.TcCoe Idealize.SL.Sem Idealize.ShloMosaic.StableHlo
open Idealize.ShloMosaic.ValueIdx
open Cert.ReferenceIdeal.Read

theorem lidx_ix3 (b : Fin 4) (r c : Fin 5096) (k : Fin 64) :
    lidx_main_v1 (ix3 b r c) k = ix3 b r k := by
  funext a; match a with | ⟨0, _⟩ => rfl | ⟨1, _⟩ => rfl | ⟨2, _⟩ => rfl

theorem ridx_ix3 (b : Fin 4) (r c : Fin 5096) (k : Fin 64) :
    ridx_main_v1 (ix3 b r c) k = ix3 b c k := by
  funext a; match a with | ⟨0, _⟩ => rfl | ⟨1, _⟩ => rfl | ⟨2, _⟩ => rfl

theorem idx10_ix3 (b : Fin 4) (r c : Fin 5096) :
    idx_main_v10 (ix3 b r c) = ix3 (0 : Fin 1) r c := by
  funext a; match a with | ⟨0, _⟩ => rfl | ⟨1, _⟩ => rfl | ⟨2, _⟩ => rfl

theorem idx9_ix3 (z : Fin 1) (r c : Fin 5096) :
    idx_main_v9 (ix3 z r c) = ix2 r c := by
  funext a; match a with | ⟨0, _⟩ => rfl | ⟨1, _⟩ => rfl

/-- The equality test of two words, as a one-bit word. -/
theorem cmpi_eq_word (a b : BitVec 32) : IntOp.cmpi .eq a b = if a = b then 1#1 else 0#1 := by
  unfold IntOp.cmpi
  by_cases h : a = b
  · rw [if_pos h, h, beq_self_eq_true]; rfl
  · rw [if_neg h, beq_eq_false_iff_ne.mpr h]; rfl

/-- Two row numbers below 5096 are equal as 32-bit words exactly when they are equal: nothing wraps around. -/
theorem ofNat_eq_iff (r c : Fin 5096) : BitVec.ofNat 32 r.val = BitVec.ofNat 32 c.val ↔ r.val = c.val := by
  constructor
  · intro h
    have h' := congrArg BitVec.toNat h
    simp only [BitVec.toNat_ofNat] at h'
    have hr := r.isLt
    have hc := c.isLt
    omega
  · intro h; rw [h]

/-- The identity's entry: the one-bit word "row + 0 = column" converted to a float is 1 on the diagonal and 0 off it. -/
theorem eye_word (r c : Fin 5096) :
    FloatOps.uitofp (F := Ideal) .f32 (IntOp.cmpi .eq (IntOp.addi (BitVec.ofNat 32 r.val) 0#32) (BitVec.ofNat 32 c.val))
      = if r.val = c.val then ((1 : ℝ) : EReal) else ((0 : ℝ) : EReal) := by
  rw [cmpi_eq_word, IntOp.addi, BitVec.add_zero]
  by_cases h : r.val = c.val
  · rw [if_pos ((ofNat_eq_iff r c).mpr h), if_pos h]
    show (((1#1 : BitVec 1).toNat : ℝ) : EReal) = ((1 : ℝ) : EReal)
    norm_num
  · rw [if_neg (fun h' => h ((ofNat_eq_iff r c).mp h')), if_neg h]
    show (((0#1 : BitVec 1).toNat : ℝ) : EReal) = ((0 : ℝ) : EReal)
    norm_num

theorem result_eq (x0 : (⟨S4x5000x64, .f32⟩ : BufTy).Contents (Elt Ideal)) (x1 : (⟨S4x96x64, .f32⟩ : BufTy).Contents (Elt Ideal)) :
    Cert.ReferenceIdeal.Read.val_main_v12 (F := Ideal) x0 x1 = Cert.Spec.adjArr (Cert.ReferenceIdeal.Read.val_main_v0 (F := Ideal) x0 x1) := by
  funext i
  obtain ⟨b, r, c, rfl⟩ : ∃ b r c, i = ix3 b r c := ⟨i 0, i 1, i 2, eq_ix3 i⟩
  rw [val_main_v12_apply, val_main_v11_apply, val_main_v2_apply, val_main_v1_apply, val_main_call0_v0_apply, val_main_call0_cst_apply,
    val_main_v10_apply, idx10_ix3, val_main_v9_apply, idx9_ix3, val_main_v8_apply, val_main_v7_apply, val_main_v6_apply, val_main_v3_apply, val_main_v5_apply,
    val_main_c_apply, val_main_v4_apply]
  rw [Spec.adjArr_apply]
  unfold Spec.adj
  simp only [lidx_ix3, ridx_ix3]
  rw [Ideal.hostUnary_tanh_def, Ideal.addf_def, Ideal.maximumf_def, Ideal.ofBits_def, Ideal.ofBits_zero_f32]
  exact congrArg (fun t => Ideal.tanh (max (∑ d : Fin 64, val_main_v0 (F := Ideal) x0 x1 (ix3 b r d) * val_main_v0 (F := Ideal) x0 x1 (ix3 b c d)) 0 + t)) (eye_word r c)

/-- On every device, from any memory with zero counters: every weakly fair execution of the reference terminates with its
    result holding the adjacency of the joined node embeddings, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v12) = Cert.Spec.adjArr (Cert.ReferenceIdeal.Read.val_main_v0 (F := Ideal) (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨((h c).1.trans (Cert.ReferenceIdeal.Read.val_main_v12_eq (F := Ideal) _ _)).trans (result_eq _ _), (h c).2⟩)
    (Cert.ReferenceIdeal.Value.run (F := Ideal) m ρ)

end Cert.RefSide

end
-- ==== Proof.lean ====
/-
  The certificate's five claims, assembled.
  Both programs compute, from the node embeddings X (the two argument arrays joined along the node axis, 5096 nodes of
  64 features in each of 4 batches), the array `tanh (max (X Xᵀ) 0 + I)` batch by batch. The kernel program pads X
  with 24 zero rows, computes the same formula tile by tile (1280 × 1280 tiles, each a product of a row block and a column
  block of the padded embeddings — both read from the one padded array — with the identity's entries decided from the tile's
  position), and keeps the leading 5096 × 5096 block; a padding row never enters a kept entry, whose sum runs over the 64
  features of its own row and column. At the ideal instance the change of float format before the matrix product is the
  identity and the tile product into a zero accumulator is the plain sum, so the two results are one function of X
  (`Cert.Spec.adjArr`), with no use of the inputs' finiteness.
  The frames: each kernel program's run is proved segment by segment (host operations, the kernel region with the padded
  array's ownership halved between the two windows that read it, the host slice); the reference's run is its generated
  one. The idealization rewrote nothing, so `preserves` is trivial.
-/
import proofs.«130516_j54829552501064_1_alg».proof.Defs
import proofs.«130516_j54829552501064_1_alg».proof.Proof.Gen.Kernel
import proofs.«130516_j54829552501064_1_alg».proof.Proof.Gen.KernelIdeal
import proofs.«130516_j54829552501064_1_alg».proof.Proof.Gen.ReferenceIdeal
import proofs.«130516_j54829552501064_1_alg».proof.Proof.Gen.Pre_finite_inputs
import proofs.«130516_j54829552501064_1_alg».proof.Proof.RunBits
import proofs.«130516_j54829552501064_1_alg».proof.Proof.KernelValue
import proofs.«130516_j54829552501064_1_alg».proof.Proof.RefSide
import Idealize.ShloMosaic.Adequacy
import Idealize.ShloMosaic.Init

noncomputable section

namespace Cert.Proof

open Idealize.ShloMosaic Idealize.SL.Sem

/-- The kernel program as printed runs to the end and leaves its arguments as launched. -/
theorem frame_p : Cert.frame_Kernel := fun m ρ _ =>
  (θ_run Cert.Kernel.defs _ _).mono (fun _ h c => (h c).2) (Cert.Kernel.Hand.run_main (F := Bits) m ρ)

/-- So does its idealization. -/
theorem frame_pi : Cert.frame_KernelIdeal := fun m ρ _ =>
  (θ_run Cert.KernelIdeal.defs _ _).mono (fun _ h c => (h c).2) (Cert.KernelIdeal.Hand.run_main (F := Ideal) m ρ)

/-- And the reference: its run with the result dropped. -/
theorem frame_ri : Cert.frame_ReferenceIdeal := fun m ρ _ =>
  (θ_run Cert.ReferenceIdeal.defs _ _).mono (fun _ h c => (h c).2) (Cert.RefSide.run m ρ)

/-- From memories agreeing on the arguments both idealized programs end with the adjacency of the same embeddings. -/
theorem algebraic : Cert.algebraic_KernelIdeal_ReferenceIdeal := by
  intro m ρ m' ρ' _ hagree
  refine ⟨fun c => Cert.Spec.adjArr (Cert.KernelIdeal.HandValue.nodes m c), Cert.KernelIdeal.HandValue.run m ρ, ?_⟩
  refine (θ_run Cert.ReferenceIdeal.defs _ _).mono (fun _ h c => ⟨(h c).1.trans ?_, (h c).2⟩) (Cert.RefSide.run m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
